-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg4 : FVec F S8x1024 .f32) (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  let main_v19 : FVec F S8x1024 .f32 := Host.absf main_arg4
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  main_v23

def fn {F : FTy → Type} [FloatOps F] (main_arg0 : FVec F S8x2048x1024 .f32) (main_arg1 : FVec F S8x4096x1024 .f32) (main_arg2 : FVec F S8x4096 .f32) (main_arg3 : FVec F S8x4096x1024 .f32) (main_arg4 : FVec F S8x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_arg4 main_v13 main_v16
-- ==== Kernel.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x1x4096 : Shape := ⟨3, ![8, 1, 4096]⟩
abbrev S8x1x1024 : Shape := ⟨3, ![8, 1, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x1x4096, .f32⟩
  | .hbm, ⟨6, _⟩ => ⟨S8x1x1024, .f32⟩
  | .hbm, ⟨7, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .f32⟩
  | .local _ .vmem, ⟨11, _⟩ => ⟨S1x512x1024, .f32⟩
  | .local _ .vmem, ⟨12, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_18 : BitVec 32 := 0#32
  let v29 : BitVec 1 := Scalar.cmpi .ne v28 c0_i32_18
  v29

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S8x4096_S8x1x4096 : S8x4096.ShapeCasts S8x1x4096
  shapeCasts_S8x1024_S8x1x1024 : S8x1024.ShapeCasts S8x1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x1024_p1_0_S1024x1024 : S1024x1024.Transposes [1, 0] S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .f32 = 32 ∨ (Rect.block (s := S8x4096x1024) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S8x1x1024.size a
  hwx0_4 : ∀ i : grid0.Coords, EltTy.bits .f32 = 32 ∨ (Rect.block (s := S8x1x1024) S1x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x2048x1024.size a
  hwx0_5 : ∀ i : grid0.Coords, EltTy.bits .f32 = 32 ∨ (Rect.block (s := S8x2048x1024) S1x512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x4096 : Shape := ⟨2, ![8, 4096]⟩
abbrev S8x1024 : Shape := ⟨2, ![8, 1024]⟩
abbrev S8x2048x4096 : Shape := ⟨3, ![8, 2048, 4096]⟩
abbrev S8x1x4096 : Shape := ⟨3, ![8, 1, 4096]⟩
abbrev S_ : Shape := ⟨0, ![]⟩
abbrev S8x1x1024 : Shape := ⟨3, ![8, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x4096, .f32⟩
  | .hbm, ⟨3, _⟩ => ⟨S8x4096x1024, .f32⟩
  | .hbm, ⟨4, _⟩ => ⟨S8x1024, .f32⟩
  | .hbm, ⟨5, _⟩ => ⟨S8x2048x4096, .f32⟩
  | .hbm, ⟨6, _⟩ => ⟨S8x1x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S8x2048x1024, .f32⟩
  | .hbm, ⟨13, _⟩ => ⟨S8x1x1024, .f32⟩
  | .hbm, ⟨14, _⟩ => ⟨S8x2048x1024, .f32⟩
  | .hbm, ⟨15, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  dot_S8x2048x1024_S8x4096x1024_S8x2048x4096_2_2_1_1_0_0_wf : DotDims.WF S8x2048x1024 S8x4096x1024 S8x2048x4096 [2] [2] [1] [1] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.FfnSpec.lean ====
/-
  One expert's feed-forward layer, written once as a function of the five argument arrays on the
  extended reals.  For expert `e`, token `c` and output feature `o`

      y[e, c, o] = (Σ_h relu(Σ_k x[e, c, k] · w1[e, h, k] + b1[e, h]) · w2[e, h, o]) + b2[e, o],

  with `relu z = max z 0`, `h` over the 4096 hidden units and `k` over the 1024 model features.
  Both programs compute this; they differ only in how the sum over `h` is grouped: one takes it whole,
  the other in four consecutive runs of 1024 hidden units.  Addition on the extended reals is
  commutative and associative, so the regrouping (`sum_hidden_runs`) holds at every value, the
  infinities included, and no finiteness of the inputs is used anywhere.
-/
import Idealize.ShloMosaic.PureOps.Ideal
import Idealize.ShloMosaic.Lib.ValueIdx
import Mathlib.Algebra.BigOperators.Fin
import Mathlib.Logic.Equiv.Fin.Basic

noncomputable section

open scoped BigOperators

namespace Cert.Ffn

open Idealize.ShloMosaic Idealize.ShloMosaic.ValueIdx

/-- Tokens by experts by model features. -/
abbrev SX : Shape := ⟨3, ![8, 2048, 1024]⟩
/-- Both weight arrays: experts by hidden units by model features. -/
abbrev SW : Shape := ⟨3, ![8, 4096, 1024]⟩
/-- The first bias: experts by hidden units. -/
abbrev SB1 : Shape := ⟨2, ![8, 4096]⟩
/-- The second bias: experts by model features. -/
abbrev SB2 : Shape := ⟨2, ![8, 1024]⟩

/-- The pre-activation of hidden unit `h` of expert `e` at token `c`: the inner product of the token's
    row with the unit's weight row, plus the unit's bias. -/
def pre (x : SX.Idx → EReal) (w1 : SW.Idx → EReal) (b1 : SB1.Idx → EReal) (e : Fin 8) (c : Fin 2048) (h : Fin 4096) : EReal :=
  (∑ k : Fin 1024, x (ix3 e c k) * w1 (ix3 e h k)) + b1 (ix2 e h)

/-- One hidden unit's contribution to output feature `o`: its rectified pre-activation times the
    second layer's weight. -/
def term (x : SX.Idx → EReal) (w1 : SW.Idx → EReal) (b1 : SB1.Idx → EReal) (w2 : SW.Idx → EReal)
    (e : Fin 8) (c : Fin 2048) (o : Fin 1024) (h : Fin 4096) : EReal :=
  max (pre x w1 b1 e c h) 0 * w2 (ix3 e h o)

/-- The layer's output at expert `e`, token `c`, feature `o`. -/
def out (x : SX.Idx → EReal) (w1 : SW.Idx → EReal) (b1 : SB1.Idx → EReal) (w2 : SW.Idx → EReal) (b2 : SB2.Idx → EReal)
    (e : Fin 8) (c : Fin 2048) (o : Fin 1024) : EReal :=
  (∑ h : Fin 4096, term x w1 b1 w2 e c o h) + b2 (ix2 e o)

/-- The whole output array. -/
def ffn (x : SX.Idx → EReal) (w1 : SW.Idx → EReal) (b1 : SB1.Idx → EReal) (w2 : SW.Idx → EReal) (b2 : SB2.Idx → EReal) :
    SX.Idx → EReal :=
  fun i => out x w1 b1 w2 b2 (i 0) (i 1) (i 2)

/-- A sum over the 4096 hidden units is the sum, over the four runs of 1024 consecutive units, of each
    run's sum: unit `h` is unit `h % 1024` of run `h / 1024`. -/
theorem sum_hidden_runs {M : Type*} [AddCommMonoid M] (g : Fin 4096 → M) :
    ∑ h : Fin 4096, g h
      = ∑ s ∈ Finset.range 4, ∑ k : Fin 1024, g ⟨1024 * (s % 4) + k.val, by have := k.isLt; omega⟩ := by
  rw [Finset.sum_range, ← Equiv.sum_comp (finProdFinEquiv (m := 4) (n := 1024)) g, Fintype.sum_prod_type]
  refine Finset.sum_congr rfl fun s _ => Finset.sum_congr rfl fun k _ => congrArg g (Fin.ext ?_)
  have hs := s.isLt
  show k.val + 1024 * s.val = 1024 * (s.val % 4) + k.val
  omega

end Cert.Ffn

end
-- ==== Proof.RefIsFfn.lean ====
/-
  The reference program takes the hidden sum whole.  Read index by index, its last stage at expert
  `e`, token `c`, output feature `o` is

      (Σ_h max(Σ_k x[e, c, k] · w1[e, h, k] + b1[e, h], 0) · w2[e, h, o]) + b2[e, o],

  with `h` over all 4096 hidden units at once and `k` over the 1024 model features: the first
  contraction pairs the token's row with the hidden unit's weight row, the bias is spread along the
  token axis, the rectifier is a maximum with the zero constant spread over the whole array, the
  second contraction runs over the hidden axis, and the second bias is again spread along the token
  axis.  This is the specification `Cert.Ffn.ffn` term for term; nothing but the reading of each
  stage at an index and the naming of the index tuples by their coordinates is used.
-/
import proofs.«147932_j1726576856628_1_alg».proof.Proof.Gen.ReferenceIdeal.Read
import proofs.«147932_j1726576856628_1_alg».proof.Proof.FfnSpec
import Idealize.ShloMosaic.PureOps.Ideal
import Idealize.ShloMosaic.PureOps.Ideal.Laws
import Idealize.ShloMosaic.Lib.ValueIdx
import Mathlib.Algebra.BigOperators.Fin

noncomputable section

open scoped BigOperators

open Idealize.ShloMosaic Idealize.ShloMosaic.ValueIdx

namespace Cert.Ffn.Ref

open Cert.ReferenceIdeal Cert.ReferenceIdeal.Read

/-- The left index of the first contraction is the token's row at feature `k`. -/
theorem lidx_v0_eq (j : S8x2048x4096.Idx) (k : Fin 1024) :
    lidx_main_v0 j k = ix3 (j 0) (j 1) k :=
  funext fun a => Fin.ext (by match a with | ⟨0, _⟩ => rfl | ⟨1, _⟩ => rfl | ⟨2, _⟩ => rfl)

/-- The right index of the first contraction is the hidden unit's weight row at feature `k`. -/
theorem ridx_v0_eq (j : S8x2048x4096.Idx) (k : Fin 1024) :
    ridx_main_v0 j k = ix3 (j 0) (j 2) k :=
  funext fun a => Fin.ext (by match a with | ⟨0, _⟩ => rfl | ⟨1, _⟩ => rfl | ⟨2, _⟩ => rfl)

/-- The first bias, spread twice, is read at expert and hidden unit: the token axis is dropped. -/
theorem idx_v1_v2_eq (j : S8x2048x4096.Idx) :
    idx_main_v1 (idx_main_v2 j) = ix2 (j 0) (j 2) :=
  funext fun a => Fin.ext (by match a with | ⟨0, _⟩ => rfl | ⟨1, _⟩ => rfl)

/-- The right index of the second contraction is the second weight at hidden unit `h` and the output feature. -/
theorem ridx_v5_eq (i : S8x2048x1024.Idx) (h : Fin 4096) :
    ridx_main_v5 i h = ix3 (i 0) h (i 2) :=
  funext fun a => Fin.ext (by match a with | ⟨0, _⟩ => rfl | ⟨1, _⟩ => rfl | ⟨2, _⟩ => rfl)

/-- The second bias, spread twice, is read at expert and output feature. -/
theorem idx_v6_v7_eq (i : S8x2048x1024.Idx) :
    idx_main_v6 (idx_main_v7 i) = ix2 (i 0) (i 2) :=
  funext fun a => Fin.ext (by match a with | ⟨0, _⟩ => rfl | ⟨1, _⟩ => rfl)

/-- The rectified hidden array at an index is the rectified pre-activation of that hidden unit:
    the inner product plus the bias, then the maximum with zero. -/
theorem hidden_at (x0 : (⟨S8x2048x1024, .f32⟩ : BufTy).Contents (Elt Ideal))
    (x1 : (⟨S8x4096x1024, .f32⟩ : BufTy).Contents (Elt Ideal))
    (x2 : (⟨S8x4096, .f32⟩ : BufTy).Contents (Elt Ideal)) (j : S8x2048x4096.Idx) :
    val_main_v4 (F := Ideal) x0 x1 x2 j = max (Cert.Ffn.pre x0 x1 x2 (j 0) (j 1) (j 2)) 0 := by
  rw [val_main_v4_apply, val_main_v3_apply, val_main_v0_apply, val_main_v2_apply, val_main_v1_apply,
    val_main_call0_v0_apply, val_main_call0_cst_apply, Ideal.maximumf_def, Ideal.addf_def, Ideal.ofBits_def,
    Ideal.ofBits_zero_f32, idx_v1_v2_eq]
  unfold Cert.Ffn.pre
  simp only [lidx_v0_eq, ridx_v0_eq]
  rfl

/-- The same at the left index of the second contraction: expert and token of the output index,
    hidden unit `h`. -/
theorem hidden_at_lidx (x0 : (⟨S8x2048x1024, .f32⟩ : BufTy).Contents (Elt Ideal))
    (x1 : (⟨S8x4096x1024, .f32⟩ : BufTy).Contents (Elt Ideal))
    (x2 : (⟨S8x4096, .f32⟩ : BufTy).Contents (Elt Ideal)) (i : S8x2048x1024.Idx) (h : Fin 4096) :
    val_main_v4 (F := Ideal) x0 x1 x2 (lidx_main_v5 i h) = max (Cert.Ffn.pre x0 x1 x2 (i 0) (i 1) h) 0 :=
  hidden_at x0 x1 x2 (lidx_main_v5 i h)

/-- The reference program's result is the feed-forward layer of the specification. -/
theorem ref_eq (x0 : (⟨Cert.ReferenceIdeal.S8x2048x1024, .f32⟩ : BufTy).Contents (Elt Ideal)) (x1 : (⟨Cert.ReferenceIdeal.S8x4096x1024, .f32⟩ : BufTy).Contents (Elt Ideal)) (x2 : (⟨Cert.ReferenceIdeal.S8x4096, .f32⟩ : BufTy).Contents (Elt Ideal)) (x3 : (⟨Cert.ReferenceIdeal.S8x4096x1024, .f32⟩ : BufTy).Contents (Elt Ideal)) (x4 : (⟨Cert.ReferenceIdeal.S8x1024, .f32⟩ : BufTy).Contents (Elt Ideal)) :
    Cert.ReferenceIdeal.Read.val_main_v8 (F := Ideal) x0 x1 x2 x3 x4 = Cert.Ffn.ffn x0 x1 x2 x3 x4 := by
  funext i
  rw [val_main_v8_apply, val_main_v5_apply, val_main_v7_apply, val_main_v6_apply, Ideal.addf_def,
    idx_v6_v7_eq]
  unfold Cert.Ffn.ffn Cert.Ffn.out Cert.Ffn.term
  simp only [hidden_at_lidx, ridx_v5_eq]
  rfl

end Cert.Ffn.Ref

end
-- ==== Proof.Pieces.lean ====
/-
  What the body leaves behind at one grid point, as its own arithmetic.  The kernel keeps a running
  [512, 1024] block between the four points of a run.  At a run's first point it clears the block and
  adds that point's product to the cleared block; at every later point it adds the point's product to
  what the point before left; at the run's last point it also writes the block plus the second bias to
  the output.  Each statement below says that the stores found in one of the three control cases,
  read back, are the corresponding pure terms of the blocks the point loaded: a load of a whole buffer
  reads its contents, and a load after a covering store reads what was stored.
-/
import proofs.«147932_j1726576856628_1_alg».proof.Proof.Gen.KernelIdeal.Frame
import Idealize.ShloMosaic.Lib.Pipeline.Value
import Idealize.ShloMosaic.Lib.Tactic

noncomputable section

namespace Cert.Ffn.Pieces

open Cert.KernelIdeal Cert.KernelIdeal.Gen Idealize.ShloMosaic Idealize.ShloMosaic.TcCoe Idealize.SL.Sem

variable {F : FTy → Type} [FloatOps F]

/-- The origin of a rank-2 buffer. -/
theorem hz2 : (![0, 0] : Fin 2 → Nat) = fun _ => 0 := funext fun a => by fin_cases a <;> rfl
/-- The origin of a rank-3 buffer. -/
theorem hz3 : (![0, 0, 0] : Fin 3 → Nat) = fun _ => 0 := funext fun a => by fin_cases a <;> rfl

/-- A run's first point: the running block is cleared, read back, and left at the cleared block plus
    this point's product. -/
theorem scr_A (c : Dev nD) (i : grid0.Coords) (a3 : Memref sig .tc .vmem S1x512x1024 .f32) (h3 : a3.IsWhole) (a4 : Memref sig .tc .vmem S1x1024x1024 .f32) (h4 : a4.IsWhole) (a5 : Memref sig .tc .vmem S1x1x1024 .f32) (h5 : a5.IsWhole) (a6 : Memref sig .tc .vmem S1x1024x1024 .f32) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : cond0_0 i) (hc1 : ¬cond0_1 i) (x0 : Vec F S1x512x1024 .f32) (x1 : Vec F S1x1024x1024 .f32) (x2 : Vec F S1x1x1024 .f32) (x3 : Vec F S1x1024x1024 .f32) (x4 : Vec F S1x1x1024 .f32) :
    sout0_A_0 c i a3 h3 a4 h4 a5 h5 a6 h6 a7 h7 a8 h8 a9 h9 hc0 hc1 x0 x1 x2 x3 x4 = k0_pay2 x0 x1 x2 x3 (k0_pay1 (F := F)) := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S512x1024) hz2, View.readCov_unit_zero (S := S512x1024) _ hz2]
  simp only [View.readAt_eq_ld, h3.read_unread, h4.read_unread, h5.read_unread, h6.read_unread, h7.read_unread, h9.read_unread, View.ld_unit_zero (S := S1x512x1024) hz3, View.ld_unit_zero (S := S1x1024x1024) hz3, View.ld_unit_zero (S := S1x1x1024) hz3, View.ld_unit_zero (S := S512x1024) hz2]

/-- A middle point of a run: the running block `xs0` the point before left, plus this point's product. -/
theorem scr_B (c : Dev nD) (i : grid0.Coords) (a3 : Memref sig .tc .vmem S1x512x1024 .f32) (h3 : a3.IsWhole) (a4 : Memref sig .tc .vmem S1x1024x1024 .f32) (h4 : a4.IsWhole) (a5 : Memref sig .tc .vmem S1x1x1024 .f32) (h5 : a5.IsWhole) (a6 : Memref sig .tc .vmem S1x1024x1024 .f32) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : ¬cond0_0 i) (hc1 : ¬cond0_1 i) (x0 : Vec F S1x512x1024 .f32) (x1 : Vec F S1x1024x1024 .f32) (x2 : Vec F S1x1x1024 .f32) (x3 : Vec F S1x1024x1024 .f32) (x4 : Vec F S1x1x1024 .f32) (xs0 : Vec F S512x1024 .f32) :
    sout0_B_0 c i a3 h3 a4 h4 a5 h5 a6 h6 a7 h7 a8 h8 a9 h9 hc0 hc1 x0 x1 x2 x3 x4 xs0 = k0_pay2 x0 x1 x2 x3 xs0 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero hz2]
  simp only [View.readAt_eq_ld, h3.read_unread, h4.read_unread, h5.read_unread, h6.read_unread, h7.read_unread, h9.read_unread, View.ld_unit_zero (S := S1x512x1024) hz3, View.ld_unit_zero (S := S1x1024x1024) hz3, View.ld_unit_zero (S := S1x1x1024) hz3, View.ld_unit_zero (S := S512x1024) hz2]

/-- A run's last point leaves the same in the running block … -/
theorem scr_C (c : Dev nD) (i : grid0.Coords) (a3 : Memref sig .tc .vmem S1x512x1024 .f32) (h3 : a3.IsWhole) (a4 : Memref sig .tc .vmem S1x1024x1024 .f32) (h4 : a4.IsWhole) (a5 : Memref sig .tc .vmem S1x1x1024 .f32) (h5 : a5.IsWhole) (a6 : Memref sig .tc .vmem S1x1024x1024 .f32) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : ¬cond0_0 i) (hc1 : cond0_1 i) (x0 : Vec F S1x512x1024 .f32) (x1 : Vec F S1x1024x1024 .f32) (x2 : Vec F S1x1x1024 .f32) (x3 : Vec F S1x1024x1024 .f32) (x4 : Vec F S1x1x1024 .f32) (xs0 : Vec F S512x1024 .f32) :
    sout0_C_0 c i a3 h3 a4 h4 a5 h5 a6 h6 a7 h7 a8 h8 a9 h9 hc0 hc1 x0 x1 x2 x3 x4 xs0 = k0_pay2 x0 x1 x2 x3 xs0 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero hz2]
  simp only [View.readAt_eq_ld, h3.read_unread, h4.read_unread, h5.read_unread, h6.read_unread, h7.read_unread, h9.read_unread, View.ld_unit_zero (S := S1x512x1024) hz3, View.ld_unit_zero (S := S1x1024x1024) hz3, View.ld_unit_zero (S := S1x1x1024) hz3, View.ld_unit_zero (S := S512x1024) hz2]

/-- … and stores to the output block that running block, read back, plus the second bias row. -/
theorem out_C (c : Dev nD) (i : grid0.Coords) (a3 : Memref sig .tc .vmem S1x512x1024 .f32) (h3 : a3.IsWhole) (a4 : Memref sig .tc .vmem S1x1024x1024 .f32) (h4 : a4.IsWhole) (a5 : Memref sig .tc .vmem S1x1x1024 .f32) (h5 : a5.IsWhole) (a6 : Memref sig .tc .vmem S1x1024x1024 .f32) (h6 : a6.IsWhole) (a7 : Memref sig .tc .vmem S1x1x1024 .f32) (h7 : a7.IsWhole) (a8 : Memref sig .tc .vmem S1x512x1024 .f32) (h8 : a8.IsWhole) (a9 : Memref sig .tc .vmem S512x1024 .f32) (h9 : a9.IsWhole) (hc0 : ¬cond0_0 i) (hc1 : cond0_1 i) (x0 : Vec F S1x512x1024 .f32) (x1 : Vec F S1x1024x1024 .f32) (x2 : Vec F S1x1x1024 .f32) (x3 : Vec F S1x1024x1024 .f32) (x4 : Vec F S1x1x1024 .f32) (xs0 : Vec F S512x1024 .f32) :
    out0_C_5 c i a3 h3 a4 h4 a5 h5 a6 h6 a7 h7 a8 h8 a9 h9 hc0 hc1 x0 x1 x2 x3 x4 xs0 = k0_pay3 (k0_pay2 x0 x1 x2 x3 xs0) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero hz3]
  simp only [View.readAt_eq_ld, h3.read_unread, h4.read_unread, h5.read_unread, h6.read_unread, h7.read_unread, h9.read_unread, View.ld_unit_zero (S := S1x512x1024) hz3, View.ld_unit_zero (S := S1x1024x1024) hz3, View.ld_unit_zero (S := S1x1x1024) hz3, View.ld_unit_zero (S := S512x1024) hz2, View.readCov_unit_zero (S := S512x1024) _ hz2]

end Cert.Ffn.Pieces

end
-- ==== Proof.Step.lean ====
/-
  The running block as a recurrence over the grid points, in the body's own terms.  Whatever case a
  point is in, it leaves in the running block one and the same expression `stepOf`: the point's four
  staged blocks' product added to a starting block — the cleared block at a run's first point, what the
  point before left at every other one.  At a run's last point the output block is the running block it
  leaves plus the staged second-bias row.
-/
import proofs.«147932_j1726576856628_1_alg».proof.Proof.Gen.KernelIdeal.Value
import proofs.«147932_j1726576856628_1_alg».proof.Proof.Pieces

noncomputable section

namespace Cert.Ffn.Step

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- One point's update of the running block `acc`: its product, of the four blocks staged at `t`, added to `acc`. -/
def stepOf (c : Dev nD) (t : Fin cfg0.N) (acc : Vec F S512x1024 .f32) : Vec F S512x1024 .f32 :=
  k0_pay2 (iblk m c 0 t) (iblk m c 1 t) (iblk m c 2 t) (iblk m c 3 t) acc

/-- At a run's first point the running block is the update of the cleared block, whatever it held. -/
theorem scAt_first (c : Dev nD) (n : ℕ) (hb : n < cfg0.N) (h0 : n % 4 = 0) (acc : Vec F S512x1024 .f32) :
    scAt0_0 m c n hb acc = stepOf m c (⟨n, hb⟩ : Fin cfg0.N) (k0_pay1 (F := F)) := by
  have h1 : ¬n % 4 = 3 := by omega
  unfold scAt0_0 stepOf
  rw [dif_pos h0, dif_neg h1]
  exact Cert.Ffn.Pieces.scr_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

/-- At every other point it is the update of what it held. -/
theorem scAt_later (c : Dev nD) (n : ℕ) (hb : n < cfg0.N) (h0 : ¬n % 4 = 0) (acc : Vec F S512x1024 .f32) :
    scAt0_0 m c n hb acc = stepOf m c (⟨n, hb⟩ : Fin cfg0.N) acc := by
  unfold scAt0_0 stepOf
  rw [dif_neg h0]
  by_cases h1 : n % 4 = 3
  · rw [dif_pos h1]
    exact Cert.Ffn.Pieces.scr_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
  · rw [dif_neg h1]
    exact Cert.Ffn.Pieces.scr_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- What a run's last point writes back: the running block it leaves, plus the second-bias row. -/
theorem flushed_last (c : Dev nD) (t : Fin cfg0.N) (h0 : ¬t.val % 4 = 0) (h1 : t.val % 4 = 3) :
    (dats m 0 c).flushed 5 t
      = (cfg0.win 5).cut (grid0.coords t) (k0_pay3 ((outsAt0 m c t.val t.isLt).2) (iblk m c 4 t)) := by
  have e : (outsAt0 m c t.val t.isLt).2
      = k0_pay2 (iblk m c 0 t) (iblk m c 1 t) (iblk m c 2 t) (iblk m c 3 t) (outsAt0 m c (t.val - 1) (Nat.lt_of_le_of_lt (Nat.sub_le _ _) t.isLt)).2 := by
    rw [outsAt0_C m c t h0 h1]
    dsimp only
    exact Cert.Ffn.Pieces.scr_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
  rw [flushed5_C m c t h0 h1, e]
  exact congrArg ((cfg0.win 5).cut (grid0.coords t)) (Cert.Ffn.Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2)

end Cert.Ffn.Step

end
-- ==== Proof.Blocks.lean ====
/-
  Where each staged block sits in its array.  Grid point `t` (of 128, the last axis fastest) works for
  expert `t / 16` on token tile `(t / 4) % 4` (512 tokens) and hidden tile `t % 4` (1024 hidden units).
  The token block is rows `512·((t / 4) % 4) …` of the expert's tokens; the two weight blocks are rows
  `1024·(t % 4) …` of the expert's two weight matrices; the first bias block is the same 1024 entries of
  the expert's first bias row, the second bias block the expert's whole second bias row.  The two biases
  reach the kernel through a host reshape that inserts a unit axis, [8, n] to [8, 1, n], which keeps
  every entry at the same pair of coordinates.
-/
import proofs.«147932_j1726576856628_1_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx

noncomputable section

namespace Cert.Ffn.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- The block indices of the token window at a point. -/
theorem idx0 : ∀ t : Fin cfg0.N, win0_0.index t 0 = t.val / 16 ∧ win0_0.index t 1 = (t.val / 4) % 4 ∧ win0_0.index t 2 = 0 :=
  (by decide +kernel : ∀ t : Fin grid0.N, win0_0.index t 0 = t.val / 16 ∧ win0_0.index t 1 = (t.val / 4) % 4 ∧ win0_0.index t 2 = 0)
/-- The block indices of the first weight window. -/
theorem idx1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)
/-- The block indices of the first bias window. -/
theorem idx2 : ∀ t : Fin cfg0.N, win0_2.index t 0 = t.val / 16 ∧ win0_2.index t 1 = 0 ∧ win0_2.index t 2 = t.val % 4 :=
  (by decide +kernel : ∀ t : Fin grid0.N, win0_2.index t 0 = t.val / 16 ∧ win0_2.index t 1 = 0 ∧ win0_2.index t 2 = t.val % 4)
/-- The block indices of the second weight window. -/
theorem idx3 : ∀ t : Fin cfg0.N, win0_3.index t 0 = t.val / 16 ∧ win0_3.index t 1 = t.val % 4 ∧ win0_3.index t 2 = 0 :=
  (by decide +kernel : ∀ t : Fin grid0.N, win0_3.index t 0 = t.val / 16 ∧ win0_3.index t 1 = t.val % 4 ∧ win0_3.index t 2 = 0)
/-- The block indices of the second bias window. -/
theorem idx4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)
/-- The block indices of the output window. -/
theorem idx5 : ∀ t : Fin cfg0.N, win0_5.index t 0 = t.val / 16 ∧ win0_5.index t 1 = (t.val / 4) % 4 ∧ win0_5.index t 2 = 0 :=
  (by decide +kernel : ∀ t : Fin grid0.N, win0_5.index t 0 = t.val / 16 ∧ win0_5.index t 1 = (t.val / 4) % 4 ∧ win0_5.index t 2 = 0)

/-- The token block read at `j` is the token array at expert `t / 16`, row `512·((t / 4) % 4) + j₁`. -/
theorem xblk (c : Dev nD) (t : Fin cfg0.N) (j : S1x512x1024.Idx) (i : S8x2048x1024.Idx)
    (h0 : (i 0).val = t.val / 16) (h1 : (i 1).val = 512 * ((t.val / 4) % 4) + (j 1).val) (h2 : (i 2).val = (j 2).val) :
    (iblk m c 0 t : Vec F S1x512x1024 .f32) j = m ((c : Thread nD τ).loc main_arg0) i := by
  unfold iblk
  rw [View.read_apply]
  show V m c main_arg0 _ = _
  refine (congrFun (V_main_arg0 m c) _).trans ?_
  congr 1
  funext a
  apply Fin.ext
  have hj0 : (j 0).val < 1 := (j 0).isLt
  match a with
  | ⟨0, _⟩ => show win0_0.index t 0 * 1 + 1 * (j 0).val = (i 0).val; rw [(idx0 t).1, h0]; omega
  | ⟨1, _⟩ => show win0_0.index t 1 * 512 + 1 * (j 1).val = (i 1).val; rw [(idx0 t).2.1, h1]; omega
  | ⟨2, _⟩ => show win0_0.index t 2 * 1024 + 1 * (j 2).val = (i 2).val; rw [(idx0 t).2.2, h2]; omega

/-- The first weight block read at `j` is the first weight array at expert `t / 16`, row `1024·(t % 4) + j₁`. -/
theorem w1blk (c : Dev nD) (t : Fin cfg0.N) (j : S1x1024x1024.Idx) (i : S8x4096x1024.Idx)
    (h0 : (i 0).val = t.val / 16) (h1 : (i 1).val = 1024 * (t.val % 4) + (j 1).val) (h2 : (i 2).val = (j 2).val) :
    (iblk m c 1 t : Vec F S1x1024x1024 .f32) j = m ((c : Thread nD τ).loc main_arg1) i := by
  unfold iblk
  rw [View.read_apply]
  show V m c main_arg1 _ = _
  refine (congrFun (V_main_arg1 m c) _).trans ?_
  congr 1
  funext a
  apply Fin.ext
  have hj0 : (j 0).val < 1 := (j 0).isLt
  match a with
  | ⟨0, _⟩ => show win0_1.index t 0 * 1 + 1 * (j 0).val = (i 0).val; rw [(idx1 t).1, h0]; omega
  | ⟨1, _⟩ => show win0_1.index t 1 * 1024 + 1 * (j 1).val = (i 1).val; rw [(idx1 t).2.1, h1]; omega
  | ⟨2, _⟩ => show win0_1.index t 2 * 1024 + 1 * (j 2).val = (i 2).val; rw [(idx1 t).2.2, h2]; omega

/-- The second weight block likewise, of the second weight array. -/
theorem w2blk (c : Dev nD) (t : Fin cfg0.N) (j : S1x1024x1024.Idx) (i : S8x4096x1024.Idx)
    (h0 : (i 0).val = t.val / 16) (h1 : (i 1).val = 1024 * (t.val % 4) + (j 1).val) (h2 : (i 2).val = (j 2).val) :
    (iblk m c 3 t : Vec F S1x1024x1024 .f32) j = m ((c : Thread nD τ).loc main_arg3) i := by
  unfold iblk
  rw [View.read_apply]
  show V m c main_arg3 _ = _
  refine (congrFun (V_main_arg3 m c) _).trans ?_
  congr 1
  funext a
  apply Fin.ext
  have hj0 : (j 0).val < 1 := (j 0).isLt
  match a with
  | ⟨0, _⟩ => show win0_3.index t 0 * 1 + 1 * (j 0).val = (i 0).val; rw [(idx3 t).1, h0]; omega
  | ⟨1, _⟩ => show win0_3.index t 1 * 1024 + 1 * (j 1).val = (i 1).val; rw [(idx3 t).2.1, h1]; omega
  | ⟨2, _⟩ => show win0_3.index t 2 * 1024 + 1 * (j 2).val = (i 2).val; rw [(idx3 t).2.2, h2]; omega

/-- The first bias as the kernel's region finds it: the argument with a unit axis inserted. -/
theorem V_b1 (c : Dev nD) : (V m c main_v0 : S8x1x4096.Idx → Elt F .f32)
    = shapeCast S8x1x4096 (m ((c : Thread nD τ).loc main_arg2)) shapeCasts_S8x4096_S8x1x4096 := by
  dsimp only [V, hostOps0]; after_results; rfl

/-- The second bias likewise. -/
theorem V_b2 (c : Dev nD) : (V m c main_v1 : S8x1x1024.Idx → Elt F .f32)
    = shapeCast S8x1x1024 (m ((c : Thread nD τ).loc main_arg4)) shapeCasts_S8x1024_S8x1x1024 := by
  dsimp only [V, hostOps0]; after_results; rfl

/-- The first bias block read at `j` is the first bias at expert `t / 16`, entry `1024·(t % 4) + j₂`. -/
theorem b1blk (c : Dev nD) (t : Fin cfg0.N) (j : S1x1x1024.Idx) (i : S8x4096.Idx)
    (h0 : (i 0).val = t.val / 16) (h1 : (i 1).val = 1024 * (t.val % 4) + (j 2).val) :
    (iblk m c 2 t : Vec F S1x1x1024 .f32) j = m ((c : Thread nD τ).loc main_arg2) i := by
  unfold iblk
  rw [View.read_apply]
  show V m c main_v0 _ = _
  refine (congrFun (V_b1 m c) _).trans ?_
  refine shapeCast_apply _ _ _ i ?_
  rw [Shape.rowMajor_val_two, Shape.rowMajor_val_three]
  have hj0 : (j 0).val < 1 := (j 0).isLt
  have hj1 : (j 1).val < 1 := (j 1).isLt
  show (i 0).val * 4096 + (i 1).val
    = ((win0_2.index t 0 * 1 + 1 * (j 0).val) * 1 + (win0_2.index t 1 * 1 + 1 * (j 1).val)) * 4096 + (win0_2.index t 2 * 1024 + 1 * (j 2).val)
  rw [(idx2 t).1, (idx2 t).2.1, (idx2 t).2.2, h0, h1]
  omega

/-- The second bias block read at `j` is the second bias at expert `t / 16`, entry `j₂`. -/
theorem b2blk (c : Dev nD) (t : Fin cfg0.N) (j : S1x1x1024.Idx) (i : S8x1024.Idx)
    (h0 : (i 0).val = t.val / 16) (h1 : (i 1).val = (j 2).val) :
    (iblk m c 4 t : Vec F S1x1x1024 .f32) j = m ((c : Thread nD τ).loc main_arg4) i := by
  unfold iblk
  rw [View.read_apply]
  show V m c main_v1 _ = _
  refine (congrFun (V_b2 m c) _).trans ?_
  refine shapeCast_apply _ _ _ i ?_
  rw [Shape.rowMajor_val_two, Shape.rowMajor_val_three]
  have hj0 : (j 0).val < 1 := (j 0).isLt
  have hj1 : (j 1).val < 1 := (j 1).isLt
  show (i 0).val * 1024 + (i 1).val
    = ((win0_4.index t 0 * 1 + 1 * (j 0).val) * 1 + (win0_4.index t 1 * 1 + 1 * (j 1).val)) * 1024 + (win0_4.index t 2 * 1024 + 1 * (j 2).val)
  rw [(idx4 t).1, (idx4 t).2.1, (idx4 t).2.2, h0, h1]
  omega

end Cert.Ffn.Blocks

end
-- ==== Proof.PayAt.lean ====
/-
  The body's arithmetic at one element, on the extended reals.

  At one grid point the body holds a block of 512 token rows by 1024 model features, a run of 1024
  hidden units (their first-layer rows, their biases, their second-layer rows) and the running block
  of 512 by 1024 partial outputs.  It does three things:

    * at the first run it clears the running block: every element becomes 0;
    * at every run it adds, to element (r, o) of the running block, the product of the rectified first
      layer on the run's 1024 hidden units with those units' second-layer rows,

          Σ_k max((Σ_q x[r, q] · w1[k, q]) + b1[k]) 0 · w2[k, o];

    * at the last run it adds the second bias b2[o] to element (r, o) and hands the block out.

  The narrowing of the operands to sixteen bits before each product is the identity on the extended
  reals, each product accumulates into a zero block, and the remaining operations only move elements:
  a leading axis of extent one is dropped or added, the first-layer rows are transposed so that the
  product contracts feature against feature, and the one row of biases is repeated over the 512 token
  rows.  Each is read here at explicit coordinates.
-/
import proofs.«147932_j1726576856628_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Ffn.Pay

open Cert.KernelIdeal Cert.KernelIdeal.Gen Idealize.ShloMosaic Idealize.ShloMosaic.ValueIdx

/-! ## The matrix product's operand indices, axis by axis

The product is rows by contraction times contraction by columns: the left operand is read at
(row, contraction position), the right at (contraction position, column). -/

/-- The left operand's row is the result's row. -/
theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The left operand's column is the contraction position. -/
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- The right operand's row is the contraction position. -/
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- The right operand's column is the result's column. -/
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A matrix product into a zero block, read at (r, c): row r of the left operand against column c
    of the right, summed over the 1024 contraction positions. -/
theorem mm_at {φ₁ φ₂ : FTy} (A : FVec Ideal S512x1024 φ₁) (B : FVec Ideal S1024x1024 φ₂) (r : Fin 512) (c : Fin 1024) :
    matmul dot_S512x1024_S1024x1024_S512x1024_1_0_0_1_n_n none A B (constant (F := Ideal) S512x1024 .f32 0x00000000#32) (ix2 r c)
      = ∑ k : Fin 1024, A (ix2 r k) * B (ix2 k c) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r c) ((contrEquiv1 dot_S512x1024_S1024x1024_S512x1024_1_0_0_1_n_n 1024 rfl rfl).symm k) = ix2 r k := funext fun a => Fin.ext (by
    match a with
    | ⟨0, _⟩ => exact lhs_mm_0 _ _
    | ⟨1, _⟩ => exact (lhs_mm_1 _ _).trans hk)
  have er : dot_S512x1024_S1024x1024_S512x1024_1_0_0_1_n_n.rhsIdx (ix2 r c) ((contrEquiv1 dot_S512x1024_S1024x1024_S512x1024_1_0_0_1_n_n 1024 rfl rfl).symm k) = ix2 k c := funext fun a => Fin.ext (by
    match a with
    | ⟨0, _⟩ => exact (rhs_mm_0 _ _).trans hk
    | ⟨1, _⟩ => exact rhs_mm_1 _ _)
  rw [el, er]

/-! ## The three blocks the body stores -/

/-- At the first run the running block is cleared. -/
theorem pay1_at (j : S512x1024.Idx) : k0_pay1 (F := Ideal) j = (0 : EReal) := by
  unfold k0_pay1
  refine (congrFun (shapeCast_self _ _) j).trans ?_
  exact Ideal.ofBits_zero_f32

/-- The rectified first layer of hidden unit k at token row r: the token's row against the unit's
    first-layer row, plus the unit's bias, cut off below at zero. -/
theorem hidden_at (v3 : Vec Ideal S1x512x1024 .f32) (v6 : Vec Ideal S1x1024x1024 .f32) (v11 : Vec Ideal S1x1x1024 .f32)
    (r : Fin 512) (k : Fin 1024) :
    maximumf
        (addf
          (matmul dot_S512x1024_S1024x1024_S512x1024_1_0_0_1_n_n none
            (truncf .bf16 (shapeCast S512x1024 v3 shapeCasts_S1x512x1024_S512x1024) bitsLt_bf16_f32)
            (transpose S1024x1024 [1, 0] (truncf .bf16 (shapeCast S1024x1024 v6 shapeCasts_S1x1024x1024_S1024x1024) bitsLt_bf16_f32)
              transposes_S1024x1024_p1_0_S1024x1024)
            (constant (F := Ideal) S512x1024 .f32 0x00000000#32))
          (broadcastTo S512x1024 (shapeCast S1x1024 v11 shapeCasts_S1x1x1024_S1x1024) broadcasts_S1x1024_S512x1024))
        (broadcast S512x1024 (Scalar.ofBits (F := Ideal) .f32 0x00000000#32)) (ix2 r k)
      = max ((∑ q : Fin 1024, v3 (ix3 (0 : Fin 1) r q) * v6 (ix3 (0 : Fin 1) k q)) + v11 (ix3 (0 : Fin 1) (0 : Fin 1) k)) 0 := by
  refine (maximumf_apply _ _ _).trans ?_
  refine congrArg₂ max ?_ Ideal.ofBits_zero_f32
  refine (addf_apply _ _ _).trans ?_
  refine congrArg₂ (· + ·) ?_ ?_
  · refine (mm_at _ _ r k).trans ?_
    refine Finset.sum_congr rfl fun q _ => ?_
    refine congrArg₂ (· * ·) ?_ ?_
    · exact shapeCast_1ab_ab_apply v3 shapeCasts_S1x512x1024_S512x1024 r q
    · refine (transpose_ix2_apply _ transposes_S1024x1024_p1_0_S1024x1024 q k).trans ?_
      exact shapeCast_1ab_ab_apply v6 shapeCasts_S1x1024x1024_S1024x1024 k q
  · refine (broadcastTo_1b_ab_apply _ broadcasts_S1x1024_S512x1024 r k).trans ?_
    exact shapeCast_1ab_ab_apply v11 shapeCasts_S1x1x1024_S1x1024 (0 : Fin 1) k

/-- At every run, element (r, o) of the running block gains the product of the rectified first layer on
    the run's 1024 hidden units with those units' second-layer rows. -/
theorem pay2_at (v3 : Vec Ideal S1x512x1024 .f32) (v6 : Vec Ideal S1x1024x1024 .f32) (v11 : Vec Ideal S1x1x1024 .f32)
    (v18 : Vec Ideal S1x1024x1024 .f32) (v22 : Vec Ideal S512x1024 .f32) (r : Fin 512) (o : Fin 1024) :
    k0_pay2 (F := Ideal) v3 v6 v11 v18 v22 (ix2 r o)
      = v22 (ix2 r o) + ∑ k : Fin 1024, max ((∑ q : Fin 1024, v3 (ix3 (0 : Fin 1) r q) * v6 (ix3 (0 : Fin 1) k q)) + v11 (ix3 (0 : Fin 1) (0 : Fin 1) k)) 0 * v18 (ix3 (0 : Fin 1) k o) := by
  unfold k0_pay2
  refine (congrFun (shapeCast_self _ _) (ix2 r o)).trans ?_
  refine (addf_apply _ _ _).trans ?_
  refine congrArg (v22 (ix2 r o) + ·) ?_
  refine (mm_at _ _ r o).trans ?_
  refine Finset.sum_congr rfl fun k _ => ?_
  refine congrArg₂ (· * ·) ?_ ?_
  · exact hidden_at v3 v6 v11 r k
  · exact shapeCast_1ab_ab_apply v18 shapeCasts_S1x1024x1024_S1024x1024 k o

/-- At the last run, element (r, o) of the block handed out is the running block's plus the second
    bias of feature o. -/
theorem pay3_at (v30 : Vec Ideal S512x1024 .f32) (v31 : Vec Ideal S1x1x1024 .f32) (r : Fin 512) (o : Fin 1024) :
    k0_pay3 (F := Ideal) v30 v31 (ix3 (0 : Fin 1) r o) = v30 (ix2 r o) + v31 (ix3 (0 : Fin 1) (0 : Fin 1) o) := by
  unfold k0_pay3
  refine (shapeCast_ab_1ab_apply _ shapeCasts_S512x1024_S1x512x1024 (0 : Fin 1) r o).trans ?_
  refine (addf_apply _ _ _).trans ?_
  refine congrArg (v30 (ix2 r o) + ·) ?_
  refine (broadcastTo_1b_ab_apply _ broadcasts_S1x1024_S512x1024 r o).trans ?_
  exact shapeCast_1ab_ab_apply v31 shapeCasts_S1x1x1024_S1x1024 (0 : Fin 1) o

end Cert.Ffn.Pay

end
-- ==== Proof.Fold.lean ====
/-
  The kernel's result array is the feed-forward layer of the specification.
  A run is four consecutive grid points `4q, …, 4q + 3`: one expert, one tile of 512 tokens, the four
  tiles of 1024 hidden units in order.  Point `n` adds to element (r, o) of the running block its
  `addend`: the sum over the point's 1024 hidden units of the rectified pre-activation of token
  `512·((n / 4) % 4) + r` times the second-layer weight towards feature `o`.  The first point of the run
  adds it to the cleared block, so after the run's last point the block holds `0` plus the four addends;
  that point writes the block plus the second bias to the tile's rows of the output.  The four addends
  together are the sum over all 4096 hidden units (`sum_hidden_runs`), so every row of the output is the
  specification's; each row lies in the tile written by exactly the last point of its run.
-/
import proofs.«147932_j1726576856628_1_alg».proof.Proof.Gen.KernelIdeal.Value
import proofs.«147932_j1726576856628_1_alg».proof.Proof.FfnSpec
import proofs.«147932_j1726576856628_1_alg».proof.Proof.Step
import proofs.«147932_j1726576856628_1_alg».proof.Proof.Blocks
import proofs.«147932_j1726576856628_1_alg».proof.Proof.PayAt
import Idealize.ShloMosaic.Lib.Pipeline.Value
import Idealize.ShloMosaic.Lib.ValueIdx

noncomputable section

open scoped BigOperators

namespace Cert.Ffn.Fold

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The five argument arrays on core `c`, as functions into the extended reals. -/
abbrev X (c : Dev nD) : Cert.Ffn.SX.Idx → EReal := m ((c : Thread nD τ).loc main_arg0)
abbrev W1 (c : Dev nD) : Cert.Ffn.SW.Idx → EReal := m ((c : Thread nD τ).loc main_arg1)
abbrev B1 (c : Dev nD) : Cert.Ffn.SB1.Idx → EReal := m ((c : Thread nD τ).loc main_arg2)
abbrev W2 (c : Dev nD) : Cert.Ffn.SW.Idx → EReal := m ((c : Thread nD τ).loc main_arg3)
abbrev B2 (c : Dev nD) : Cert.Ffn.SB2.Idx → EReal := m ((c : Thread nD τ).loc main_arg4)

/-- What the specification says the result array holds. -/
abbrev result (c : Dev nD) : S8x2048x1024.Idx → EReal :=
  Cert.Ffn.ffn (X m c) (W1 m c) (B1 m c) (W2 m c) (B2 m c)

/-- Point `n`'s contribution to element `i` of the running block. -/
def addend (c : Dev nD) (n : ℕ) (i : S512x1024.Idx) : EReal :=
  ∑ k : Fin 1024, Cert.Ffn.term (X m c) (W1 m c) (B1 m c) (W2 m c)
    ⟨(n / 16) % 8, Nat.mod_lt _ (by decide)⟩
    ⟨512 * ((n / 4) % 4) + (i 0).val, by have := idx2_lt0 i; omega⟩
    ⟨(i 1).val, idx2_lt1 i⟩
    ⟨1024 * (n % 4) + k.val, by have := k.isLt; omega⟩

/-- One point's update adds its addend. -/
theorem step_at (c : Dev nD) (t : Fin cfg0.N) (acc : Vec Ideal S512x1024 .f32) (i : S512x1024.Idx) :
    Cert.Ffn.Step.stepOf m c t acc i = acc i + addend m c t.val i := by
  obtain ⟨r, o, rfl⟩ : ∃ (r : Fin 512) (o : Fin 1024), i = ix2 r o := ⟨i 0, i 1, eq_ix2 i⟩
  have hN : t.val < 128 := lt_of_lt_of_eq t.isLt N_0
  unfold Cert.Ffn.Step.stepOf
  refine (Cert.Ffn.Pay.pay2_at (iblk m c 0 t) (iblk m c 1 t) (iblk m c 2 t) (iblk m c 3 t) acc r o).trans ?_
  refine congrArg (acc (ix2 r o) + ·) ?_
  unfold addend
  refine Finset.sum_congr rfl fun k _ => ?_
  unfold Cert.Ffn.term Cert.Ffn.pre
  have hk := k.isLt
  rw [Cert.Ffn.Blocks.b1blk m c t (ix3 (0 : Fin 1) (0 : Fin 1) k)
        (ix2 (⟨(t.val / 16) % 8, Nat.mod_lt _ (by decide)⟩ : Fin 8) (⟨1024 * (t.val % 4) + k.val, by omega⟩ : Fin 4096))
        (by show (t.val / 16) % 8 = t.val / 16; omega) rfl,
      Cert.Ffn.Blocks.w2blk m c t (ix3 (0 : Fin 1) k o)
        (ix3 (⟨(t.val / 16) % 8, Nat.mod_lt _ (by decide)⟩ : Fin 8) (⟨1024 * (t.val % 4) + k.val, by omega⟩ : Fin 4096) o)
        (by show (t.val / 16) % 8 = t.val / 16; omega) rfl rfl]
  refine congrArg (fun z => max (z + _) 0 * _) (Finset.sum_congr rfl fun q _ => ?_)
  rw [Cert.Ffn.Blocks.xblk m c t (ix3 (0 : Fin 1) r q)
        (ix3 (⟨(t.val / 16) % 8, Nat.mod_lt _ (by decide)⟩ : Fin 8) (⟨512 * ((t.val / 4) % 4) + r.val, by have := r.isLt; omega⟩ : Fin 2048) q)
        (by show (t.val / 16) % 8 = t.val / 16; omega) rfl rfl,
      Cert.Ffn.Blocks.w1blk m c t (ix3 (0 : Fin 1) k q)
        (ix3 (⟨(t.val / 16) % 8, Nat.mod_lt _ (by decide)⟩ : Fin 8) (⟨1024 * (t.val % 4) + k.val, by omega⟩ : Fin 4096) q)
        (by show (t.val / 16) % 8 = t.val / 16; omega) rfl rfl]

/-- The running block through a run: after `j` further points from the run's first point `4q` it holds
    zero plus the addends of points `4q … 4q + j`. -/
theorem run_fold (c : Dev nD) (q : ℕ) (j : ℕ) (hj : j ≤ 3) (h : 4 * q + j < cfg0.N) (i : S512x1024.Idx) :
    Pipeline.accAt (fun n h => scAt0_0 m c n h (VS0_0.read (Elt Ideal) VS0_0.junk)) (scAt0_0 m c) (4 * q) j h i
      = 0 + ∑ s ∈ Finset.range (j + 1), addend m c (4 * q + s) i :=
  Pipeline.accAt_add_apply (fun n h => scAt0_0 m c n h (VS0_0.read (Elt Ideal) VS0_0.junk)) (scAt0_0 m c)
    (fun _ => (0 : EReal)) (addend m c) (4 * q) 3
    (fun hb i => by
      rw [Cert.Ffn.Step.scAt_first m c (4 * q) hb (Nat.mul_mod_right 4 q), step_at]
      exact congrArg (· + addend m c (4 * q) i) (Cert.Ffn.Pay.pay1_at i))
    (fun n hb acc i h1 h2 => by
      rw [Cert.Ffn.Step.scAt_later m c n hb (by omega), step_at])
    j hj h i

/-- So at the last point of its run the running block holds zero plus the run's four addends. -/
theorem scratch_last (c : Dev nD) (t : Fin cfg0.N) (h3 : t.val % 4 = 3) (i : S512x1024.Idx) :
    (outsAt0 m c t.val t.isLt).2 i = 0 + ∑ s ∈ Finset.range 4, addend m c (4 * (t.val / 4) + s) i := by
  rw [soutsAt0_0_eq m c t, run_fold m c (t.val / 4) (t.val % 4) (by omega), h3]

/-- The tile of the output a point writes: expert `t / 16`, rows `512·((t / 4) % 4) …`, all features. -/
theorem mem_tile (t : Fin cfg0.N) (i : S8x2048x1024.Idx) :
    i ∈ ((cfg0.win 5).blk t).view.set ↔
      ∀ a : Fin 3, win0_5.index t a * S1x512x1024.size a ≤ (i a).val ∧ (i a).val < win0_5.index t a * S1x512x1024.size a + S1x512x1024.size a := by
  show i ∈ ((View.whole main_v2).slice (win0_5.rect t)).set ↔ _
  rw [View.set_slice_whole, Rect.mem_set_unit]
  exact Iff.rfl

/-- What the last point of a run writes back is its tile of the specification's result. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  have hN : t.val < 128 := lt_of_lt_of_eq t.isLt N_0
  rw [Cert.Ffn.Step.flushed_last m c t (by omega) h3]
  funext j
  obtain ⟨z, r, o, rfl⟩ : ∃ (z : Fin 1) (r : Fin 512) (o : Fin 1024), j = ix3 z r o := ⟨j 0, j 1, j 2, eq_ix3 j⟩
  obtain rfl : z = 0 := Subsingleton.elim _ _
  show k0_pay3 ((outsAt0 m c t.val t.isLt).2) (iblk m c 4 t) (ix3 (0 : Fin 1) r o)
    = result m c (((cfg0.win 5).blk t).view.emb (ix3 (0 : Fin 1) r o))
  rw [Cert.Ffn.Pay.pay3_at, scratch_last m c t h3, zero_add]
  have hr := r.isLt
  have e0 : ((((cfg0.win 5).blk t).view.emb (ix3 (0 : Fin 1) r o)) 0).val = t.val / 16 := by
    show win0_5.index t 0 * 1 + 1 * 0 = _; rw [(Cert.Ffn.Blocks.idx5 t).1]; omega
  have e1 : ((((cfg0.win 5).blk t).view.emb (ix3 (0 : Fin 1) r o)) 1).val = 512 * ((t.val / 4) % 4) + r.val := by
    show win0_5.index t 1 * 512 + 1 * r.val = _; rw [(Cert.Ffn.Blocks.idx5 t).2.1]; omega
  have e2 : ((((cfg0.win 5).blk t).view.emb (ix3 (0 : Fin 1) r o)) 2).val = o.val := by
    show win0_5.index t 2 * 1024 + 1 * o.val = _; rw [(Cert.Ffn.Blocks.idx5 t).2.2]; omega
  generalize ((cfg0.win 5).blk t).view.emb (ix3 (0 : Fin 1) r o) = i at e0 e1 e2
  show _ = Cert.Ffn.out (X m c) (W1 m c) (B1 m c) (W2 m c) (B2 m c) (i 0) (i 1) (i 2)
  unfold Cert.Ffn.out
  rw [Cert.Ffn.sum_hidden_runs]
  refine congrArg₂ (· + ·) (Finset.sum_congr rfl fun s hs => ?_) ?_
  · have hs4 : s < 4 := Finset.mem_range.mp hs
    unfold addend
    refine Finset.sum_congr rfl fun k _ => ?_
    have hk := k.isLt
    congr 1
    · exact Fin.ext (by show ((4 * (t.val / 4) + s) / 16) % 8 = (i 0).val; rw [e0]; omega)
    · exact Fin.ext (by show 512 * (((4 * (t.val / 4) + s) / 4) % 4) + r.val = (i 1).val; rw [e1]; omega)
    · exact Fin.ext (by show o.val = (i 2).val; rw [e2])
    · exact Fin.ext (by show 1024 * ((4 * (t.val / 4) + s) % 4) + k.val = 1024 * (s % 4) + k.val; omega)
  · exact Cert.Ffn.Blocks.b2blk m c t (ix3 (0 : Fin 1) (0 : Fin 1) o) (ix2 (i 0) (i 2)) e0 e2

/-- Every element of the output lies in the tile written by the last point of its run. -/
theorem cover (i : S8x2048x1024.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 1024 := (i 2).isLt
  have hN : cfg0.N = 128 := N_0
  refine ⟨⟨16 * (i 0).val + 4 * ((i 1).val / 512) + 3, by rw [hN]; omega⟩, ?_, ?_⟩
  · rw [flush0_5]; show (16 * (i 0).val + 4 * ((i 1).val / 512) + 3) % 4 = 3; omega
  · rw [mem_tile]
    intro a
    obtain ⟨q0, q1, q2⟩ := Cert.Ffn.Blocks.idx5 ⟨16 * (i 0).val + 4 * ((i 1).val / 512) + 3, by rw [hN]; omega⟩
    match a with
    | ⟨0, _⟩ =>
      show win0_5.index _ 0 * 1 ≤ (i 0).val ∧ (i 0).val < win0_5.index _ 0 * 1 + 1
      rw [q0]; show (16 * (i 0).val + 4 * ((i 1).val / 512) + 3) / 16 * 1 ≤ _ ∧ _ < (16 * (i 0).val + 4 * ((i 1).val / 512) + 3) / 16 * 1 + 1; omega
    | ⟨1, _⟩ =>
      show win0_5.index _ 1 * 512 ≤ (i 1).val ∧ (i 1).val < win0_5.index _ 1 * 512 + 512
      rw [q1]; show (16 * (i 0).val + 4 * ((i 1).val / 512) + 3) / 4 % 4 * 512 ≤ _ ∧ _ < (16 * (i 0).val + 4 * ((i 1).val / 512) + 3) / 4 % 4 * 512 + 512; omega
    | ⟨2, _⟩ =>
      show win0_5.index _ 2 * 1024 ≤ (i 2).val ∧ (i 2).val < win0_5.index _ 2 * 1024 + 1024
      rw [q2]; omega

/-- So the result array ends as the specification's feed-forward layer of the argument arrays. -/
theorem final (c : Dev nD) : (dats m 0 c).arrAt 5 cfg0.N = result m c :=
  (dats m 0 c).arrAt_eq_of_cover 5 (result m c) (flushed_eq m c) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Ffn.Fold

end
-- ==== Proof.lean ====
/-
  A mixture-of-experts feed-forward layer, tiled, against the same layer written with two whole
  contractions.  For each of 8 experts, 2048 tokens and 1024 output features both programs compute

      y[e, c, o] = (Σ_h relu(Σ_k x[e, c, k] · w1[e, h, k] + b1[e, h]) · w2[e, h, o]) + b2[e, o]

  (Proof/FfnSpec.lean).  The reference takes the sum over the 4096 hidden units whole
  (Proof/RefIsFfn.lean).  The kernel walks a grid of 8 × 4 × 4 points — expert, tile of 512 tokens, tile
  of 1024 hidden units, the last fastest —, keeps a running [512, 1024] block through the four hidden
  tiles of one token tile, and writes the block plus the second bias out at the fourth
  (Proof/Pieces.lean, Proof/Step.lean: what a point leaves; Proof/PayAt.lean: its arithmetic at an
  element; Proof/Blocks.lean: where the staged blocks sit in the arrays; Proof/Fold.lean: the four
  partial sums are the whole sum, tile by tile of the output).  On the extended reals a change of float
  format is the identity and addition is commutative and associative at every value, so the regrouping
  of the hidden sum needs no finiteness: the precondition is never opened.  The idealization rewrote
  nothing, so there is nothing to preserve; the three programs' frames are the generated runs.
-/
import proofs.«147932_j1726576856628_1_alg».proof.Defs
import proofs.«147932_j1726576856628_1_alg».proof.Proof.Gen.Kernel
import proofs.«147932_j1726576856628_1_alg».proof.Proof.Gen.Kernel.Skeleton
import proofs.«147932_j1726576856628_1_alg».proof.Proof.Gen.Kernel.Launch
import proofs.«147932_j1726576856628_1_alg».proof.Proof.Gen.Kernel.Points
import proofs.«147932_j1726576856628_1_alg».proof.Proof.Gen.Kernel.Frame
import proofs.«147932_j1726576856628_1_alg».proof.Proof.Gen.KernelIdeal
import proofs.«147932_j1726576856628_1_alg».proof.Proof.Gen.KernelIdeal.Skeleton
import proofs.«147932_j1726576856628_1_alg».proof.Proof.Gen.KernelIdeal.Launch
import proofs.«147932_j1726576856628_1_alg».proof.Proof.Gen.KernelIdeal.Points
import proofs.«147932_j1726576856628_1_alg».proof.Proof.Gen.KernelIdeal.Frame
import proofs.«147932_j1726576856628_1_alg».proof.Proof.Gen.ReferenceIdeal
import proofs.«147932_j1726576856628_1_alg».proof.Proof.Gen.Pre_finite_inputs
import proofs.«147932_j1726576856628_1_alg».proof.Proof.Gen.KernelIdeal.Value
import proofs.«147932_j1726576856628_1_alg».proof.Proof.Gen.ReferenceIdeal.Run
import proofs.«147932_j1726576856628_1_alg».proof.Proof.Gen.ReferenceIdeal.Read
import proofs.«147932_j1726576856628_1_alg».proof.Proof.RefIsFfn
import proofs.«147932_j1726576856628_1_alg».proof.Proof.Fold
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From arguments that agree, the kernel's result array and the reference's both end as the
    feed-forward layer of those arguments. -/
theorem algebraic : Cert.algebraic_KernelIdeal_ReferenceIdeal := by
  intro m ρ m' ρ' _ hagree
  refine ⟨fun c => Cert.Ffn.Fold.result m c, Cert.Ffn.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Ffn.Ref.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
